-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 77
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x64, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x1, .f32⟩
  | .hbm, ⟨69, _⟩ => ⟨S1700000x64, .f32⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | .hbm, ⟨75, _⟩ => ⟨S1x64, .f32⟩
  | .hbm, ⟨76, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x64, .f32⟩
  | .hbm, ⟨91, _⟩ => ⟨S1700000x1, .f32⟩
  | .hbm, ⟨92, _⟩ => ⟨S1700000x64, .f32⟩
  | .hbm, ⟨93, _⟩ => ⟨S1700000x64, .f32⟩
  | .hbm, ⟨94, _⟩ => ⟨S_, .f32⟩
  | .hbm, ⟨95, _⟩ => ⟨S100000x64, .f32⟩
  | .hbm, ⟨96, _⟩ => ⟨S1700000x1, .i32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Stages.lean ====
import proofs.«126303_j58961311040081_1_alg».proof.Proof.Gen.ReferenceIdeal.Read

noncomputable section

/-! The four stages the kernel's regions compute, each written with the reference's own host operations over
    whole arrays at the extended reals: a region's result array is then literally the term the reference's run holds
    at the same place, and the two programs meet stage by stage. -/
namespace Cert.Stages

open Cert.ReferenceIdeal Cert.ReferenceIdeal.Gen Idealize.ShloMosaic Idealize.ShloMosaic.TcCoe Idealize.SL.Sem

/-- Layer 1's projection `x · W1`: the sum over the 128 input features of `x[n, k] · W1[k, j]`. -/
abbrev proj1 (x : (⟨S100000x128, .f32⟩ : BufTy).Contents (Elt Ideal)) (w : (⟨S128x128, .f32⟩ : BufTy).Contents (Elt Ideal)) :
    (⟨S100000x128, .f32⟩ : BufTy).Contents (Elt Ideal) :=
  Cert.ReferenceIdeal.Read.val_main_v12 (F := Ideal) x w

/-- Layer 1's bias and rectifier: `max (a[n, j] + b[0, j]) 0`, the row `b` broadcast down the nodes. -/
def biasRelu (a : (⟨S100000x128, .f32⟩ : BufTy).Contents (Elt Ideal)) (b : (⟨S1x128, .f32⟩ : BufTy).Contents (Elt Ideal)) :
    (⟨S100000x128, .f32⟩ : BufTy).Contents (Elt Ideal) :=
  maximumf (F := Ideal) (φ := .f32) (addf (F := Ideal) (φ := .f32) a (broadcastInDim S100000x128 ![0, 1] bcast_S1x128_S100000x128_0_1 b)) (Cert.ReferenceIdeal.Read.val_main_call0_v0 (F := Ideal))

/-- Layer 2's projection `h · W2`: the sum over the 128 hidden features of `h[n, k] · W2[k, j]`. -/
def proj2 (h : (⟨S100000x128, .f32⟩ : BufTy).Contents (Elt Ideal)) (w : (⟨S128x64, .f32⟩ : BufTy).Contents (Elt Ideal)) :
    (⟨S100000x64, .f32⟩ : BufTy).Contents (Elt Ideal) :=
  Host.dotGeneral (F := Ideal) (φ₁ := .f32) (φ₂ := .f32) dot_S100000x128_S128x64_S100000x64_1_0_0_1_n_n none h w

/-- Layer 2's bias: `a[n, j] + b[0, j]`. -/
def bias (a : (⟨S100000x64, .f32⟩ : BufTy).Contents (Elt Ideal)) (b : (⟨S1x64, .f32⟩ : BufTy).Contents (Elt Ideal)) :
    (⟨S100000x64, .f32⟩ : BufTy).Contents (Elt Ideal) :=
  addf (F := Ideal) (φ := .f32) a (broadcastInDim S100000x64 ![0, 1] bcast_S1x64_S100000x64_0_1 b)

end Cert.Stages

end
-- ==== Proof.Region0.lean ====
import proofs.«126303_j58961311040081_1_alg».proof.Proof.Gen.KernelIdeal.Frame
import proofs.«126303_j58961311040081_1_alg».proof.Proof.Gen.ReferenceIdeal.Read
import proofs.«126303_j58961311040081_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered: any contents, at the extended reals
variable (V : (c : Dev nD) → (b : Ref sig .tc) → Buf (Elt Ideal) ((c : Thread nD τ).loc b))

/-! ## The block product at an index -/

/-- The zero offsets of a whole-buffer access, however spelt. -/
theorem zero_offsets : (![0, 0] : Fin 2 → Nat) = fun _ => 0 := funext fun a => by fin_cases a <;> rfl

/-- On the row axis the left factor of the block product sits at the output's row. -/
theorem lhs_block_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- On the feature axis the left factor sits at the summation index. -/
theorem lhs_block_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- On its row axis the right factor sits at the summation index. -/
theorem rhs_block_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- On its column axis the right factor sits at the output's column. -/
theorem rhs_block_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's arithmetic at an entry: rounding to the narrower format is the identity at the extended reals and the
    accumulator starts at zero, so entry `(p, q)` of the block product is `∑ k, x[p, k] · w[k, q]`. -/
theorem block_product_apply (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_block_0 _ _
    | ⟨1, _⟩ => exact (lhs_block_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_block_0 _ _).trans hk
    | ⟨1, _⟩ => exact rhs_block_1 _ _)
  rw [el, er]
  rfl

/-! ## The stage at an index -/

/-- The whole-array projection at entry `(r, q)`: `∑ k, x[r, k] · w[k, q]`. -/
theorem proj1_apply (X : Vec Ideal S100000x128 .f32) (W : Vec Ideal S128x128 .f32) (r : Fin 100000) (q : Fin 128) :
    Cert.Stages.proj1 X W (ix2 r q) = ∑ k : Fin 128, X (ix2 r k) * W (ix2 k q) := by
  refine (Cert.ReferenceIdeal.Read.val_main_v12_apply X W (ix2 r q)).trans ?_
  refine Finset.sum_congr rfl fun k _ => ?_
  have el : Cert.ReferenceIdeal.Read.lidx_main_v12 (ix2 r q) k = ix2 r k := funext fun a => by
    match a with
    | ⟨0, _⟩ => rfl
    | ⟨1, _⟩ => rfl
  have er : Cert.ReferenceIdeal.Read.ridx_main_v12 (ix2 r q) k = ix2 k q := funext fun a => by
    match a with
    | ⟨0, _⟩ => rfl
    | ⟨1, _⟩ => rfl
  rw [el, er]

/-- One entry of a block product is the matching entry of the whole-array projection, when the left block holds rows
    `b · 2000 …` of the left array and the right block is the right array. -/
theorem entry_eq (X : Vec Ideal S100000x128 .f32) (W : Vec Ideal S128x128 .f32)
    (x : Vec Ideal S2000x128 .f32) (w : Vec Ideal S128x128 .f32) (p : Fin 2000) (q : Fin 128) (r : Fin 100000)
    (hx : ∀ k : Fin 128, x (ix2 p k) = X (ix2 r k)) (hw : ∀ k : Fin 128, w (ix2 k q) = W (ix2 k q)) :
    k0_pay1 (F := Ideal) x w (ix2 p q) = Cert.Stages.proj1 X W (ix2 r q) := by
  rw [block_product_apply, proj1_apply]
  exact Finset.sum_congr rfl fun k _ => by rw [hx k, hw k]

/-! ## From blocks to the array -/

/-- The printed index maps, decided over the fifty grid points: the left operand's window and the result's window sit
    at row block `t`, column block `0`; the right operand's window is always its whole array. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand array, the right operand array, as the region finds them. -/
abbrev xarr (c : Dev nD) : Vec Ideal S100000x128 .f32 := V c main_arg0
abbrev warr (c : Dev nD) : Vec Ideal S128x128 .f32 := V c main_arg2

/-- WHAT POINT `t` WRITES BACK is block `t` of the projection of the two operand arrays. -/
theorem flushed_eq (c : Dev nD) (t : Fin cfg0.N) :
    (dat0 (F := Ideal) V c).flushed 2 t
      = ((cfg0.win 2).blk t).view.read (Elt Ideal) (Cert.Stages.proj1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5⟩ := index_maps t
  have ht : t.val < 50 := t.isLt
  funext j
  obtain ⟨p, q, rfl⟩ : ∃ (p : Fin 2000) (q : Fin 128), j = ix2 p q := ⟨j 0, j 1, eq_ix2 j⟩
  have hp : p.val < 2000 := p.isLt
  have hemb : ((cfg0.win 2).blk t).view.emb (ix2 p q) = ix2 (⟨t.val * 2000 + p.val, by omega⟩ : Fin 100000) q := by
    funext a; apply Fin.ext
    match a with
    | ⟨0, _⟩ => show win0_2.index t (0 : Fin 2) * 2000 + 1 * p.val = t.val * 2000 + p.val; rw [e4]; omega
    | ⟨1, _⟩ => show win0_2.index t (1 : Fin 2) * 128 + 1 * q.val = q.val; rw [e5]; omega
  show k0_pay1 (F := Ideal) (iblk0 V c 0 t) (iblk0 V c 1 t) (ix2 p q)
    = Cert.Stages.proj1 (xarr V c) (warr V c) (((cfg0.win 2).blk t).view.emb (ix2 p q))
  rw [hemb]
  refine entry_eq (xarr V c) (warr V c) _ _ p q _ (fun k => ?_) (fun k => ?_)
  · show xarr V c (((cfg0.win 0).blk t).view.emb (ix2 p k)) = _
    refine congrArg (xarr V c) (funext fun a => Fin.ext ?_)
    match a with
    | ⟨0, _⟩ => show win0_0.index t (0 : Fin 2) * 2000 + 1 * p.val = t.val * 2000 + p.val; rw [e0]; omega
    | ⟨1, _⟩ => show win0_0.index t (1 : Fin 2) * 128 + 1 * k.val = k.val; rw [e1]; omega
  · show warr V c (((cfg0.win 1).blk t).view.emb (ix2 k q)) = _
    refine congrArg (warr V c) (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = q.val; rw [e3]; omega

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- The fifty row blocks tile the hundred thousand rows at full width: row `r` lies in the block of point `r / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (50 : Nat) = cfg0.N := N_0.symm
  obtain ⟨t, ht⟩ : ∃ t : Fin cfg0.N, t.val = (i 0).val / 2000 := ⟨Fin.cast hN ⟨(i 0).val / 2000, by omega⟩, rfl⟩
  obtain ⟨e0, e1, e2, e3, e4, e5⟩ := index_maps t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 128 ≤ (i 1).val ∧ (i 1).val < win0_2.index t (1 : Fin 2) * 128 + 128; rw [e5]; omega

/-- After region 0's fifty grid points the result array holds the stage's function of the two operand arrays as
    the region found them. -/
theorem value (c : Dev nD) :
    (dat0 (F := Ideal) V c).arrAt 2 cfg0.N = Cert.Stages.proj1 (V c main_arg0) (V c main_arg2) :=
  (dat0 (F := Ideal) V c).arrAt_eq_of_cover 2 (Cert.Stages.proj1 (V c main_arg0) (V c main_arg2))
    (fun t _ => flushed_eq V c t) covered

end Cert.KernelIdeal.Region0

end
-- ==== Proof.Region1.lean ====
import proofs.«126303_j58961311040081_1_alg».proof.Proof.Gen.KernelIdeal.Frame
import proofs.«126303_j58961311040081_1_alg».proof.Proof.Gen.ReferenceIdeal.Read
import proofs.«126303_j58961311040081_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-buffer access, as a constant function. -/
theorem zero_offsets : (![0, 0] : Fin 2 → Nat) = fun _ => 0 := funext fun a => by fin_cases a <;> rfl

/-- The body's arithmetic at one element of a block: the entry of the block plus the bias row's entry in the same
    column, and the larger of that and zero. -/
theorem payload_apply (x0 : Vec Ideal S2000x128 .f32) (x1 : Vec Ideal S1x128 .f32) (p : Fin 2000) (q : Fin 128) :
    k1_pay1 (F := Ideal) x0 x1 (ix2 p q) = max (x0 (ix2 p q) + x1 (ix2 (0 : Fin 1) q)) 0 := by
  unfold k1_pay1
  simp only [shapeCast_self]
  rw [maximumf_apply, addf_apply, broadcast_apply, broadcastTo_1b_ab_apply]
  show max _ (Ideal.ofBits .f32 0x00000000#32) = _
  rw [Ideal.ofBits_zero_f32]

/-- The stage at one element of the array: the entry plus the bias row's entry in the same column, and the larger of
    that and zero. -/
theorem biasRelu_apply (a : (⟨S100000x128, .f32⟩ : BufTy).Contents (Elt Ideal)) (b : (⟨S1x128, .f32⟩ : BufTy).Contents (Elt Ideal))
    (r : Fin 100000) (q : Fin 128) :
    Cert.Stages.biasRelu a b (ix2 r q) = max ((a : S100000x128.Idx → EReal) (ix2 r q) + (b : S1x128.Idx → EReal) (ix2 (0 : Fin 1) q)) 0 := by
  unfold Cert.Stages.biasRelu
  rw [maximumf_apply, addf_apply, Cert.ReferenceIdeal.Read.val_main_call0_v0_apply, Cert.ReferenceIdeal.Read.val_main_call0_cst_apply]
  rw [broadcastInDim_apply _ Cert.ReferenceIdeal.Gen.bcast_S1x128_S100000x128_0_1 b (ix2 r q) (ix2 (0 : Fin 1) q) (fun ax => match ax with
    | ⟨0, _⟩ => by show 0 = if (1 : Nat) = 1 then 0 else r.val; rw [if_pos rfl]
    | ⟨1, _⟩ => by show q.val = if (128 : Nat) = 1 then 0 else q.val; rw [if_neg (by decide)])]
  show max _ (Ideal.ofBits .f32 0x00000000#32) = _
  rw [Ideal.ofBits_zero_f32]

-- the TensorCore's buffer contents when the region is entered: any contents, at the extended reals
variable (V : (c : Dev nD) → (b : Ref sig .tc) → Buf (Elt Ideal) ((c : Thread nD τ).loc b))

/-- The hidden-layer array the region reads, as an array of extended reals. -/
abbrev hidden (c : Dev nD) : Vec Ideal S100000x128 .f32 := V c main_v40
/-- The bias row the region reads. -/
abbrev biasRow (c : Dev nD) : Vec Ideal S1x128 .f32 := V c main_v41
/-- The block of 2000 rows of the hidden-layer array that grid point `t` works on. -/
abbrev hiddenBlock (c : Dev nD) (t : Fin cfg1.N) : Vec Ideal S2000x128 .f32 := iblk1 V c 0 t
/-- The bias row as grid point `t` sees it. -/
abbrev biasBlock (c : Dev nD) (t : Fin cfg1.N) : Vec Ideal S1x128 .f32 := iblk1 V c 1 t

/-- The printed index maps over the grid: point `t` reads and writes row block `t` (the one column block), and
    always reads the bias row's one block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- There are fifty grid points. -/
theorem point_lt (t : Fin cfg1.N) : t.val < 50 := t.isLt.trans_eq N_1

/-- Row `p` of point `t`'s block of the hidden-layer array is row `2000 t + p` of the array. -/
theorem hiddenBlock_apply (c : Dev nD) (t : Fin cfg1.N) (p : Fin 2000) (q : Fin 128) (r : Fin 100000)
    (hr : r.val = t.val * 2000 + p.val) : hiddenBlock V c t (ix2 p q) = hidden V c (ix2 r q) := by
  obtain ⟨e00, e01, -, -, -, -⟩ := block_indices t
  show V c main_v40 (((cfg1.win 0).blk t).view.emb (ix2 p q)) = V c main_v40 (ix2 r q)
  congr 1
  funext a
  apply Fin.ext
  match a with
  | ⟨0, _⟩ => show win1_0.index t (0 : Fin 2) * 2000 + 1 * p.val = r.val; rw [e00, hr]; omega
  | ⟨1, _⟩ => show win1_0.index t (1 : Fin 2) * 128 + 1 * q.val = q.val; rw [e01]; omega

/-- Every point's block of the bias row is the row itself. -/
theorem biasBlock_apply (c : Dev nD) (t : Fin cfg1.N) (z : Fin 1) (q : Fin 128) :
    biasBlock V c t (ix2 z q) = biasRow V c (ix2 (0 : Fin 1) q) := by
  obtain ⟨-, -, e10, e11, -, -⟩ := block_indices t
  show V c main_v41 (((cfg1.win 1).blk t).view.emb (ix2 z q)) = V c main_v41 (ix2 (0 : Fin 1) q)
  congr 1
  funext a
  apply Fin.ext
  match a with
  | ⟨0, _⟩ => show win1_1.index t (0 : Fin 2) * 1 + 1 * z.val = 0; rw [e10]; have := z.isLt; omega
  | ⟨1, _⟩ => show win1_1.index t (1 : Fin 2) * 128 + 1 * q.val = q.val; rw [e11]; omega

/-- What grid point `t` writes back is block `t` of the stage's function of the two operand arrays. -/
theorem flushed_eq (c : Dev nD) (t : Fin cfg1.N) :
    (dat1 (F := Ideal) V c).flushed 2 t
      = ((cfg1.win 2).blk t).view.read (Elt Ideal) (Cert.Stages.biasRelu (V c main_v40) (V c main_v41)) := by
  show (cfg1.win 2).cut (grid1.coords t) ((dat1 (F := Ideal) V c).after 2 t) = _
  rw [after1_2]
  unfold out1_2
  rw [View.canon_unit_zero zero_offsets]
  simp only [View.ld_unit_zero (S := S2000x128) zero_offsets, View.ld_unit_zero (S := S1x128) zero_offsets]
  obtain ⟨-, -, -, -, e20, e21⟩ := block_indices t
  have ht := point_lt t
  funext j
  obtain ⟨p, q, rfl⟩ : ∃ (p : Fin 2000) (q : Fin 128), j = ix2 p q := ⟨j 0, j 1, eq_ix2 j⟩
  obtain ⟨r, hr⟩ : ∃ r : Fin 100000, r.val = t.val * 2000 + p.val :=
    ⟨⟨t.val * 2000 + p.val, by have := p.isLt; omega⟩, rfl⟩
  have hemb : ((cfg1.win 2).blk t).view.emb (ix2 p q) = ix2 r q := by
    funext a
    apply Fin.ext
    match a with
    | ⟨0, _⟩ => show win1_2.index t (0 : Fin 2) * 2000 + 1 * p.val = r.val; rw [e20, hr]; omega
    | ⟨1, _⟩ => show win1_2.index t (1 : Fin 2) * 128 + 1 * q.val = q.val; rw [e21]; omega
  show k1_pay1 (F := Ideal) (hiddenBlock V c t) (biasBlock V c t) (ix2 p q)
    = Cert.Stages.biasRelu (V c main_v40) (V c main_v41) (((cfg1.win 2).blk t).view.emb (ix2 p q))
  rw [hemb, payload_apply, biasRelu_apply, hiddenBlock_apply V c t p q r hr, biasBlock_apply V c t 0 q]

/-- An index of the result array lies in point `t`'s block iff each coordinate lies in the block's range. -/
theorem mem_block (t : Fin cfg1.N) (i : S100000x128.Idx) :
    i ∈ ((cfg1.win 2).blk t).view.set
      ↔ ∀ a : Fin 2, win1_2.index t a * S2000x128.size a ≤ (i a).val
          ∧ (i a).val < win1_2.index t a * S2000x128.size a + S2000x128.size a := by
  show i ∈ ((View.whole main_v42).slice (win1_2.rect t)).set ↔ _
  rw [View.set_slice_whole, Rect.mem_set_unit]
  exact Iff.rfl

/-- The fifty blocks of 2000 rows, at the full width, tile the 100000 rows: row `r` lies in the block of point
    `r / 2000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨-, -, -, -, e20, e21⟩ := block_indices t
  have htv : t.val = (i 0).val / 2000 := rfl
  refine ⟨t, flush1_2 t, ?_⟩
  rw [mem_block]
  intro a
  match a with
  | ⟨0, _⟩ =>
    show win1_2.index t (0 : Fin 2) * 2000 ≤ (i 0).val ∧ (i 0).val < win1_2.index t (0 : Fin 2) * 2000 + 2000
    rw [e20, htv]; omega
  | ⟨1, _⟩ =>
    show win1_2.index t (1 : Fin 2) * 128 ≤ (i 1).val ∧ (i 1).val < win1_2.index t (1 : Fin 2) * 128 + 128
    rw [e21]; omega

/-- After region 1's fifty grid points the result array holds the stage's function of the two operand arrays as
    the region found them. -/
theorem value (c : Dev nD) :
    (dat1 (F := Ideal) V c).arrAt 2 cfg1.N = Cert.Stages.biasRelu (V c main_v40) (V c main_v41) := by
  exact (dat1 (F := Ideal) V c).arrAt_eq_of_cover 2 (Cert.Stages.biasRelu (V c main_v40) (V c main_v41))
    (fun t _ => flushed_eq V c t) cover

end Cert.KernelIdeal.Region1

end
-- ==== Proof.Region2.lean ====
import proofs.«126303_j58961311040081_1_alg».proof.Proof.Gen.KernelIdeal.Frame
import proofs.«126303_j58961311040081_1_alg».proof.Proof.Gen.ReferenceIdeal.Read
import proofs.«126303_j58961311040081_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2 truncf_apply)

-- the TensorCore's buffer contents when the region is entered: any contents, at the extended reals
variable (V : (c : Dev nD) → (b : Ref sig .tc) → Buf (Elt Ideal) ((c : Thread nD τ).loc b))

/-! ## The block product at an index

The body multiplies a [2000,128] block by the [128,64] weight into a zero accumulator; at the extended reals the
rounding of both operands to bf16 is the identity, so entry (p, q) of the result is the sum over the 128 hidden
features k of x[p, k] · w[k, q]. The four lemmas below read the dot's operand indices axis by axis. -/

theorem lhs_blockdot_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_blockdot_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_blockdot_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_blockdot_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry (p, q) of the body's result: the row p of the block against the column q of the weight. -/
theorem pay_apply (x0 : Vec Ideal S2000x128 .f32) (x1 : Vec Ideal S128x64 .f32) (p : Fin 2000) (q : Fin 64) :
    k2_pay1 (F := Ideal) x0 x1 (ix2 p q) = ∑ k : Fin 128, x0 (ix2 p k) * x1 (ix2 k q) := by
  unfold k2_pay1
  rw [shapeCast_self]
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_blockdot_0 _ _
    | ⟨1, _⟩ => exact (lhs_blockdot_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_blockdot_0 _ _).trans hk
    | ⟨1, _⟩ => exact rhs_blockdot_1 _ _)
  rw [truncf_apply, truncf_apply, el, er]

/-! ## The stage at an index

Layer 2's projection of the whole arrays, read at row r and column q: the same sum over the 128 hidden features,
now along a row of the 100000-row array. The dot's operand indices are read by the reference's own axis lemmas. -/

/-- Entry (r, q) of `h · W2`. -/
theorem proj2_apply (y : (⟨S100000x128, .f32⟩ : BufTy).Contents (Elt Ideal)) (w : (⟨S128x64, .f32⟩ : BufTy).Contents (Elt Ideal))
    (r : Fin 100000) (q : Fin 64) :
    Cert.Stages.proj2 y w (ix2 r q) = ∑ k : Fin 128, y (ix2 r k) * w (ix2 k q) := by
  unfold Cert.Stages.proj2
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r q) ((ValueIdx.contrEquiv1 Cert.ReferenceIdeal.dot_S100000x128_S128x64_S100000x64_1_0_0_1_n_n 128 rfl rfl).symm k) = ix2 r k := funext fun a => Fin.ext (by
    match a with
    | ⟨0, _⟩ => exact Cert.ReferenceIdeal.Read.lhs_main_v45_0 _ _
    | ⟨1, _⟩ => exact (Cert.ReferenceIdeal.Read.lhs_main_v45_1 _ _).trans hk)
  have er : Cert.ReferenceIdeal.dot_S100000x128_S128x64_S100000x64_1_0_0_1_n_n.rhsIdx (ix2 r q) ((ValueIdx.contrEquiv1 Cert.ReferenceIdeal.dot_S100000x128_S128x64_S100000x64_1_0_0_1_n_n 128 rfl rfl).symm k) = ix2 k q := funext fun a => Fin.ext (by
    match a with
    | ⟨0, _⟩ => exact (Cert.ReferenceIdeal.Read.rhs_main_v45_0 _ _).trans hk
    | ⟨1, _⟩ => exact Cert.ReferenceIdeal.Read.rhs_main_v45_1 _ _)
  rw [el, er]

/-! ## From the fifty blocks to the array

Point t of the grid stages rows 2000·t … 2000·t + 1999 of the hidden array (all 128 columns) and the whole weight,
and writes back rows 2000·t … 2000·t + 1999 of the result (all 64 columns). -/

theorem zero_offsets : (![0, 0] : Fin 2 → Nat) = fun _ => 0 := funext fun a => by fin_cases a <;> rfl

/-- The printed index maps over the grid: the hidden array's and the result's block index is (t, 0), the weight's
    is (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of `h · W2` of the two arrays as the region finds them: row p of the
    block is row 2000·t + p of the array, and the sum over the hidden features is the same sum. -/
theorem flushed_eq (c : Dev nD) (t : Fin cfg2.N) :
    (dat2 (F := Ideal) V c).flushed 2 t
      = ((cfg2.win 2).blk t).view.read (Elt Ideal) (Cert.Stages.proj2 (V c main_v42) (V c main_arg4)) := by
  show (cfg2.win 2).cut (grid2.coords t) ((dat2 (F := Ideal) V c).after 2 t) = _
  rw [after2_2]
  unfold out2_2
  rw [View.canon_unit_zero zero_offsets]
  simp only [View.ld_unit_zero (S := S2000x128) zero_offsets, View.ld_unit_zero (S := S128x64) zero_offsets]
  obtain ⟨e00, e01, e10, e11, e20, e21⟩ := block_indices t
  have ht : t.val < 50 := lt_of_lt_of_eq t.isLt N_2
  funext j
  obtain ⟨p, q, rfl⟩ : ∃ (p : Fin 2000) (q : Fin 64), j = ix2 p q := ⟨j 0, j 1, eq_ix2 j⟩
  have hp : p.val < 2000 := p.isLt
  have hrow : t.val * 2000 + p.val < 100000 := by omega
  show k2_pay1 (F := Ideal) (iblk2 V c 0 t) (iblk2 V c 1 t) (ix2 p q)
    = Cert.Stages.proj2 (V c main_v42) (V c main_arg4) (((cfg2.win 2).blk t).view.emb (ix2 p q))
  have hout : ((cfg2.win 2).blk t).view.emb (ix2 p q) = ix2 (⟨t.val * 2000 + p.val, hrow⟩ : Fin 100000) q := by
    funext a; apply Fin.ext
    match a with
    | ⟨0, _⟩ => show win2_2.index t (0 : Fin 2) * 2000 + 1 * p.val = t.val * 2000 + p.val; omega
    | ⟨1, _⟩ => show win2_2.index t (1 : Fin 2) * 64 + 1 * q.val = q.val; omega
  rw [hout, proj2_apply, pay_apply]
  refine Finset.sum_congr rfl fun k _ => ?_
  have hh : iblk2 V c 0 t (ix2 p k) = V c main_v42 (ix2 (⟨t.val * 2000 + p.val, hrow⟩ : Fin 100000) k) := by
    show V c main_v42 (((cfg2.win 0).blk t).view.emb (ix2 p k)) = _
    refine congrArg (V c main_v42) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  have hw : iblk2 V c 1 t (ix2 k q) = V c main_arg4 (ix2 k q) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega
  rw [hh, hw]

/-- An index of the result array is in point t's block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v43).slice (win2_2.rect t)).set ↔ _
  rw [View.set_slice_whole, Rect.mem_set_unit]
  exact Iff.rfl

/-- The fifty blocks tile the array: row r lies in the block of point r / 2000, and a block spans all 64 columns. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, htv⟩ : ∃ t : Fin cfg2.N, t.val = (i 0).val / 2000 :=
    ⟨⟨(i 0).val / 2000, lt_of_lt_of_eq (show (i 0).val / 2000 < 50 by omega) N_2.symm⟩, rfl⟩
  obtain ⟨-, -, -, -, e20, e21⟩ := block_indices t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After region 2's fifty grid points the result array holds the stage's function of the two operand arrays as
    the region found them. -/
theorem value (c : Dev nD) :
    (dat2 (F := Ideal) V c).arrAt 2 cfg2.N = Cert.Stages.proj2 (V c main_v42) (V c main_arg4) := by
  exact (dat2 (F := Ideal) V c).arrAt_eq_of_cover 2 (Cert.Stages.proj2 (V c main_v42) (V c main_arg4))
    (fun t _ => flushed_eq V c t) cover

end Cert.KernelIdeal.Region2

end
-- ==== Proof.Region3.lean ====
import proofs.«126303_j58961311040081_1_alg».proof.Proof.Gen.KernelIdeal.Frame
import proofs.«126303_j58961311040081_1_alg».proof.Proof.Gen.ReferenceIdeal.Read
import proofs.«126303_j58961311040081_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2)

-- the TensorCore's buffer contents when the region is entered: any contents, at the extended reals
variable (V : (c : Dev nD) → (b : Ref sig .tc) → Buf (Elt Ideal) ((c : Thread nD τ).loc b))

/-! ## The body's arithmetic and the stage, entry by entry -/

/-- The body's stored value at row `p`, column `q` of a block: the block's entry plus the bias row's entry in that
    column (the row is broadcast down the 2000 rows of the block). -/
theorem pay_apply (x0 : Vec Ideal S2000x64 .f32) (x1 : Vec Ideal S1x64 .f32) (p : Fin 2000) (q : Fin 64) :
    k3_pay1 x0 x1 (ix2 p q) = x0 (ix2 p q) + x1 (ix2 (0 : Fin 1) q) := by
  unfold k3_pay1
  rw [shapeCast_self, shapeCast_self, shapeCast_self, ValueIdx.addf_apply, ValueIdx.broadcastTo_1b_ab_apply]

/-- The stage at row `r`, column `q` of the whole array: the entry plus the bias row's entry in that column. -/
theorem bias_apply (a : Vec Ideal S100000x64 .f32) (b : Vec Ideal S1x64 .f32) (r : Fin 100000) (q : Fin 64) :
    Cert.Stages.bias a b (ix2 r q) = a (ix2 r q) + b (ix2 (0 : Fin 1) q) := by
  unfold Cert.Stages.bias
  rw [ValueIdx.addf_apply]
  refine congrArg (a (ix2 r q) + ·) ?_
  exact broadcastInDim_apply _ _ b (ix2 r q) (ix2 (0 : Fin 1) q) (fun ax => match ax with
    | ⟨0, _⟩ => by show 0 = if (1 : Nat) = 1 then 0 else r.val; rw [if_pos rfl]
    | ⟨1, _⟩ => by show q.val = if (64 : Nat) = 1 then 0 else q.val; rw [if_neg (by decide)])

/-! ## Where each window's block sits, decided over the fifty grid points -/

theorem zero_offsets : (![0, 0] : Fin 2 → Nat) = fun _ => 0 := funext fun a => by fin_cases a <;> rfl

/-- At grid point `t` the input block and the output block are row block `t` (rows `2000 t … 2000 t + 1999`, the full
    width), and the bias row's block is the whole row. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is row block `t` of the stage's array: row `p` of the block is row
    `2000 t + p` of the array, and the bias row is read whole at every point. -/
theorem flushed_eq (c : Dev nD) (t : Fin cfg3.N) :
    (dat3 (F := Ideal) V c).flushed 2 t
      = ((cfg3.win 2).blk t).view.read (Elt Ideal) (Cert.Stages.bias (V c main_v56) (V c main_v57)) := by
  show (cfg3.win 2).cut (grid3.coords t) ((dat3 (F := Ideal) V c).after 2 t) = _
  rw [after3_2]
  unfold out3_2
  rw [View.canon_unit_zero zero_offsets]
  simp only [View.ld_unit_zero (S := S2000x64) zero_offsets, View.ld_unit_zero (S := S1x64) zero_offsets]
  obtain ⟨e00, e01, e10, e11, e20, e21⟩ := block_indices t
  have ht : t.val < 50 := lt_of_lt_of_eq t.isLt N_3
  funext j
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  show k3_pay1 (iblk3 V c 0 t) (iblk3 V c 1 t) (ix2 p q)
    = Cert.Stages.bias (V c main_v56) (V c main_v57) (((cfg3.win 2).blk t).view.emb (ix2 p q))
  rw [pay_apply]
  -- the output block's entry (p, q) is the array's entry (2000 t + p, q)
  have hout : ((cfg3.win 2).blk t).view.emb (ix2 p q) = ix2 (⟨t.val * 2000 + p.val, hr⟩ : Fin 100000) q := by
    funext a; apply Fin.ext
    match a with
    | ⟨0, _⟩ => show win3_2.index t (0 : Fin 2) * 2000 + 1 * p.val = t.val * 2000 + p.val; rw [e20]; omega
    | ⟨1, _⟩ => show win3_2.index t (1 : Fin 2) * 64 + 1 * q.val = q.val; rw [e21]; omega
  rw [hout, bias_apply]
  -- the input block's entry (p, q) is the same entry of the operand array
  have hin : iblk3 V c 0 t (ix2 p q) = V c main_v56 (ix2 (⟨t.val * 2000 + p.val, hr⟩ : Fin 100000) q) := by
    show V c main_v56 (((cfg3.win 0).blk t).view.emb (ix2 p q)) = _
    refine congrArg (V c main_v56) ?_
    funext a; apply Fin.ext
    match a with
    | ⟨0, _⟩ => show win3_0.index t (0 : Fin 2) * 2000 + 1 * p.val = t.val * 2000 + p.val; rw [e00]; omega
    | ⟨1, _⟩ => show win3_0.index t (1 : Fin 2) * 64 + 1 * q.val = q.val; rw [e01]; omega
  -- the bias row's block is the row itself
  have hrow : iblk3 V c 1 t (ix2 (0 : Fin 1) q) = V c main_v57 (ix2 (0 : Fin 1) q) := by
    show V c main_v57 (((cfg3.win 1).blk t).view.emb (ix2 (0 : Fin 1) q)) = _
    refine congrArg (V c main_v57) ?_
    funext a; apply Fin.ext
    match a with
    | ⟨0, _⟩ => show win3_1.index t (0 : Fin 2) * 1 + 1 * 0 = 0; rw [e10]
    | ⟨1, _⟩ => show win3_1.index t (1 : Fin 2) * 64 + 1 * q.val = q.val; rw [e11]; omega
  exact congrArg₂ (· + ·) hin hrow

/-! ## The fifty row blocks tile the array -/

/-- An index of the array is in point `t`'s block exactly when each coordinate is in the block's range on its axis. -/
theorem mem_blk (t : Fin cfg3.N) (i : S100000x64.Idx) :
    i ∈ ((cfg3.win 2).blk t).view.set
      ↔ ∀ a : Fin 2, win3_2.index t a * S2000x64.size a ≤ (i a).val
          ∧ (i a).val < win3_2.index t a * S2000x64.size a + S2000x64.size a := by
  show i ∈ ((View.whole main_v58).slice (win3_2.rect t)).set ↔ _
  rw [View.set_slice_whole, Rect.mem_set_unit]
  exact Iff.rfl

/-- Row `r` of the array lies in the block of grid point `r / 2000`, whatever the column: every entry is written back
    by some point. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, htv⟩ : ∃ t : Fin cfg3.N, t.val = (i 0).val / 2000 :=
    ⟨⟨(i 0).val / 2000, lt_of_lt_of_eq (show (i 0).val / 2000 < 50 by omega) N_3.symm⟩, rfl⟩
  obtain ⟨-, -, -, -, e20, e21⟩ := block_indices t
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    rw [e20, htv]; omega
  | ⟨1, _⟩ =>
    show win3_2.index t (1 : Fin 2) * 64 ≤ (i 1).val ∧ (i 1).val < win3_2.index t (1 : Fin 2) * 64 + 64
    rw [e21]; omega

/-- After region 3's fifty grid points the result array holds the stage's function of the two operand arrays as
    the region found them. -/
theorem value (c : Dev nD) :
    (dat3 (F := Ideal) V c).arrAt 2 cfg3.N = Cert.Stages.bias (V c main_v56) (V c main_v57) := by
  exact (dat3 (F := Ideal) V c).arrAt_eq_of_cover 2 (Cert.Stages.bias (V c main_v56) (V c main_v57))
    (fun t _ => flushed_eq V c t) cover

end Cert.KernelIdeal.Region3

end
-- ==== Proof.KernelValue.lean ====
/- The value of the kernel's result array, read through @main's seven segments at the extended reals.

   The frame gives the buffer contents at each segment boundary as a fold: a stretch of host operations applies them to
   the contents before it; a region replaces its three arrays by what its fifty grid points leave and keeps every
   other buffer. Walking that fold from the launch memory: the host operations before region 0 build the edge lists
   with self-loops and the edge weights; region 0 leaves `x · W1`; the next stretch gathers its rows at the sources,
   scales them by the edge weights and sums them into the destinations; region 1 adds the bias row and takes the
   maximum with zero; region 2 multiplies by `W2`; the last stretch aggregates again; region 3 adds the second bias
   row. At each boundary the buffer the next segment reads holds exactly the reference's stage of the argument arrays
   (the reference performs the same host operations, and each region's array is the reference's stage by the region's
   value lemma), so the result array ends at the reference's last stage. -/
import proofs.«126303_j58961311040081_1_alg».proof.Proof.Gen.KernelIdeal.Frame
import proofs.«126303_j58961311040081_1_alg».proof.Proof.Gen.ReferenceIdeal.Read
import proofs.«126303_j58961311040081_1_alg».proof.Proof.Stages
import proofs.«126303_j58961311040081_1_alg».proof.Proof.Region0
import proofs.«126303_j58961311040081_1_alg».proof.Proof.Region1
import proofs.«126303_j58961311040081_1_alg».proof.Proof.Region2
import proofs.«126303_j58961311040081_1_alg».proof.Proof.Region3
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Out

open Cert.KernelIdeal Cert.KernelIdeal.Gen Idealize.ShloMosaic Idealize.ShloMosaic.TcCoe Idealize.SL.Sem
open Idealize.ShloMosaic.StableHlo
open Cert.ReferenceIdeal.Read (val_main_v3 val_main_v6 val_main_v27 val_main_v12 val_main_v40 val_main_v41 val_main_v42 val_main_v43
  val_main_v44 val_main_v45 val_main_v60 val_main_v73 val_main_v74 val_main_v75 val_main_v76)

variable (m : (ℓ : Loc nD τ sig) → Buf (Elt Ideal) ℓ) (ρ : Dev nD → PrngReg)

/-! ## Before region 0: the edge lists with self-loops, and the normalisation

    The host operations before the first region build, from the edge list alone, the source and destination lists
    with one self-loop per node appended, each node's degree, and every edge's weight
    `deg[src]^(-1/2) · deg[dst]^(-1/2)`. The reference builds the same three arrays by the same operations. -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp

theorem W1_arg2 (c : Dev nD) : W1 m ρ c (Proc.devRef .tc main_arg2) = m ((c : Thread nD τ).loc main_arg2) := by
  show StableHlo.after hostOps0 (W0 m ρ c) (Proc.devRef .tc main_arg2) = _
  after_results_simp

theorem W1_arg3 (c : Dev nD) : W1 m ρ c (Proc.devRef .tc main_arg3) = m ((c : Thread nD τ).loc main_arg3) := by
  show StableHlo.after hostOps0 (W0 m ρ c) (Proc.devRef .tc main_arg3) = _
  after_results_simp

theorem W1_arg4 (c : Dev nD) : W1 m ρ c (Proc.devRef .tc main_arg4) = m ((c : Thread nD τ).loc main_arg4) := by
  show StableHlo.after hostOps0 (W0 m ρ c) (Proc.devRef .tc main_arg4) = _
  after_results_simp

theorem W1_arg5 (c : Dev nD) : W1 m ρ c (Proc.devRef .tc main_arg5) = m ((c : Thread nD τ).loc main_arg5) := by
  show StableHlo.after hostOps0 (W0 m ρ c) (Proc.devRef .tc main_arg5) = _
  after_results_simp

/-- The source list with the self-loops appended. -/
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- The destination list with the self-loops appended. -/
theorem W1_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_simp
  rfl

/-- Every edge's weight. -/
theorem W1_v26 (c : Dev nD) : W1 m ρ c (Proc.devRef .tc main_v26) = val_main_v27 (F := Ideal) (m ((c : Thread nD τ).loc main_arg1)) := by
  show StableHlo.after hostOps0 (W0 m ρ c) (Proc.devRef .tc main_v26) = _
  after_results_simp
  rfl

/-! ## Region 0 and the aggregation after it -/

/-- Region 0 leaves `x · W1` in its result array. -/
theorem W2_v27 (c : Dev nD) : W2 m ρ c (Proc.devRef .tc main_v27)
    = val_main_v12 (F := Ideal) (m ((c : Thread nD τ).loc main_arg0)) (m ((c : Thread nD τ).loc main_arg2)) := by
  refine (W2_arr m ρ c 2).trans ?_
  rw [Region0.value (V1 m ρ) c]
  show Cert.Stages.proj1 (W1 m ρ c (Proc.devRef .tc main_arg0)) (W1 m ρ c (Proc.devRef .tc main_arg2)) = _
  rw [W1_arg0, W1_arg2]

theorem W2_v3 (c : Dev nD) : W2 m ρ c (Proc.devRef .tc main_v3) = val_main_v3 (F := Ideal) (m ((c : Thread nD τ).loc main_arg1)) :=
  (W2_of_ne m ρ c main_v3 (by decide)).trans (W1_v3 m ρ c)
theorem W2_v6 (c : Dev nD) : W2 m ρ c (Proc.devRef .tc main_v6) = val_main_v6 (F := Ideal) (m ((c : Thread nD τ).loc main_arg1)) :=
  (W2_of_ne m ρ c main_v6 (by decide)).trans (W1_v6 m ρ c)
theorem W2_v26 (c : Dev nD) : W2 m ρ c (Proc.devRef .tc main_v26) = val_main_v27 (F := Ideal) (m ((c : Thread nD τ).loc main_arg1)) :=
  (W2_of_ne m ρ c main_v26 (by decide)).trans (W1_v26 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-- Layer 1's aggregation: the rows of `x · W1` gathered at the sources, scaled by the edge weights and summed into
    the destinations. -/
theorem W3_v40 (c : Dev nD) : W3 m ρ c (Proc.devRef .tc main_v40)
    = val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [W2_v27, W2_v26, W2_v3, W2_v6]
  rfl

/-- A vector cast to one row is the vector broadcast along a new leading axis: both read it at the column. -/
theorem row_of_vector {a : ℕ} {α : Type} (x : (⟨1, ![a]⟩ : Shape).Idx → α) (h : (⟨1, ![a]⟩ : Shape).ShapeCasts ⟨2, ![1, a]⟩)
    (h' : (⟨1, ![a]⟩ : Shape).BroadcastsInDim ⟨2, ![1, a]⟩ ![1]) (ha : a ≠ 1) :
    shapeCast ⟨2, ![1, a]⟩ x h = broadcastInDim ⟨2, ![1, a]⟩ ![1] h' x := by
  funext i
  obtain ⟨u, q, rfl⟩ : ∃ (u : Fin 1) (q : Fin a), i = ValueIdx.ix2 u q := ⟨i 0, i 1, ValueIdx.eq_ix2 i⟩
  rw [ValueIdx.shapeCast_a_1a_apply]
  refine (broadcastInDim_apply _ h' x _ (ValueIdx.ix1 q) (fun d => ?_)).symm
  match d with
  | ⟨0, _⟩ => show q.val = if a = 1 then 0 else q.val; rw [if_neg ha]

/-- Layer 1's bias as one row. -/
theorem W3_v41 (c : Dev nD) : W3 m ρ c (Proc.devRef .tc main_v41) = val_main_v41 (F := Ideal) (m ((c : Thread nD τ).loc main_arg3)) := by
  show StableHlo.after hostOps1 (W2 m ρ c) (Proc.devRef .tc main_v41) = _
  after_results_simp
  rw [W2_arg3]
  exact row_of_vector _ _ _ (by decide)

theorem W3_v3 (c : Dev nD) : W3 m ρ c (Proc.devRef .tc main_v3) = val_main_v3 (F := Ideal) (m ((c : Thread nD τ).loc main_arg1)) := by
  show StableHlo.after hostOps1 (W2 m ρ c) (Proc.devRef .tc main_v3) = _
  after_results_simp
  exact W2_v3 m ρ c
theorem W3_v6 (c : Dev nD) : W3 m ρ c (Proc.devRef .tc main_v6) = val_main_v6 (F := Ideal) (m ((c : Thread nD τ).loc main_arg1)) := by
  show StableHlo.after hostOps1 (W2 m ρ c) (Proc.devRef .tc main_v6) = _
  after_results_simp
  exact W2_v6 m ρ c
theorem W3_v26 (c : Dev nD) : W3 m ρ c (Proc.devRef .tc main_v26) = val_main_v27 (F := Ideal) (m ((c : Thread nD τ).loc main_arg1)) := by
  show StableHlo.after hostOps1 (W2 m ρ c) (Proc.devRef .tc main_v26) = _
  after_results_simp
  exact W2_v26 m ρ c
theorem W3_arg4 (c : Dev nD) : W3 m ρ c (Proc.devRef .tc main_arg4) = m ((c : Thread nD τ).loc main_arg4) := by
  show StableHlo.after hostOps1 (W2 m ρ c) (Proc.devRef .tc main_arg4) = _
  after_results_simp
  exact W2_arg4 m ρ c
theorem W3_arg5 (c : Dev nD) : W3 m ρ c (Proc.devRef .tc main_arg5) = m ((c : Thread nD τ).loc main_arg5) := by
  show StableHlo.after hostOps1 (W2 m ρ c) (Proc.devRef .tc main_arg5) = _
  after_results_simp
  exact W2_arg5 m ρ c

/-! ## Regions 1 and 2 and the second aggregation -/

/-- Region 1 leaves the first layer's output `max (agg + b1) 0`. -/
theorem W4_v42 (c : Dev nD) : W4 m ρ c (Proc.devRef .tc main_v42)
    = val_main_v44 (F := Ideal) (m ((c : Thread nD τ).loc main_arg0)) (m ((c : Thread nD τ).loc main_arg1)) (m ((c : Thread nD τ).loc main_arg2)) (m ((c : Thread nD τ).loc main_arg3)) := by
  refine (W4_arr m ρ c 2).trans ?_
  rw [Region1.value (V3 m ρ) c]
  show Cert.Stages.biasRelu (W3 m ρ c (Proc.devRef .tc main_v40)) (W3 m ρ c (Proc.devRef .tc main_v41)) = _
  rw [W3_v40, W3_v41]
  rfl

theorem W4_v3 (c : Dev nD) : W4 m ρ c (Proc.devRef .tc main_v3) = val_main_v3 (F := Ideal) (m ((c : Thread nD τ).loc main_arg1)) :=
  (W4_of_ne m ρ c main_v3 (by decide)).trans (W3_v3 m ρ c)
theorem W4_v6 (c : Dev nD) : W4 m ρ c (Proc.devRef .tc main_v6) = val_main_v6 (F := Ideal) (m ((c : Thread nD τ).loc main_arg1)) :=
  (W4_of_ne m ρ c main_v6 (by decide)).trans (W3_v6 m ρ c)
theorem W4_v26 (c : Dev nD) : W4 m ρ c (Proc.devRef .tc main_v26) = val_main_v27 (F := Ideal) (m ((c : Thread nD τ).loc main_arg1)) :=
  (W4_of_ne m ρ c main_v26 (by decide)).trans (W3_v26 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-- Region 2 leaves the second projection `h1 · W2`. -/
theorem W5_v43 (c : Dev nD) : W5 m ρ c (Proc.devRef .tc main_v43)
    = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  rw [Region2.value (V4 m ρ) c]
  show Cert.Stages.proj2 (W4 m ρ c (Proc.devRef .tc main_v42)) (W4 m ρ c (Proc.devRef .tc main_arg4)) = _
  rw [W4_v42, W4_arg4]
  rfl

theorem W5_v3 (c : Dev nD) : W5 m ρ c (Proc.devRef .tc main_v3) = val_main_v3 (F := Ideal) (m ((c : Thread nD τ).loc main_arg1)) :=
  (W5_of_ne m ρ c main_v3 (by decide)).trans (W4_v3 m ρ c)
theorem W5_v6 (c : Dev nD) : W5 m ρ c (Proc.devRef .tc main_v6) = val_main_v6 (F := Ideal) (m ((c : Thread nD τ).loc main_arg1)) :=
  (W5_of_ne m ρ c main_v6 (by decide)).trans (W4_v6 m ρ c)
theorem W5_v26 (c : Dev nD) : W5 m ρ c (Proc.devRef .tc main_v26) = val_main_v27 (F := Ideal) (m ((c : Thread nD τ).loc main_arg1)) :=
  (W5_of_ne m ρ c main_v26 (by decide)).trans (W4_v26 m ρ c)
theorem W5_arg5 (c : Dev nD) : W5 m ρ c (Proc.devRef .tc main_arg5) = m ((c : Thread nD τ).loc main_arg5) :=
  (W5_of_ne m ρ c main_arg5 (by decide)).trans (W4_arg5 m ρ c)

/-- The reference computes the edge weights a second time for its second layer, by the same operations on the same
    degrees: the same array. -/
theorem weights_again (e : (⟨Cert.ReferenceIdeal.S2x1600000, .i32⟩ : BufTy).Contents (Elt Ideal)) :
    val_main_v60 (F := Ideal) e = val_main_v27 (F := Ideal) e := rfl

/-- Layer 2's aggregation. -/
theorem W6_v56 (c : Dev nD) : W6 m ρ c (Proc.devRef .tc main_v56)
    = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v56) = _
  after_results_simp
  rw [W5_v43, W5_v26, W5_v3, W5_v6, ← weights_again]
  rfl

/-- Layer 2's bias as one row. -/
theorem W6_v57 (c : Dev nD) : W6 m ρ c (Proc.devRef .tc main_v57) = val_main_v74 (F := Ideal) (m ((c : Thread nD τ).loc main_arg5)) := by
  show StableHlo.after hostOps3 (W5 m ρ c) (Proc.devRef .tc main_v57) = _
  after_results_simp
  rw [W5_arg5]
  exact row_of_vector _ _ _ (by decide)

/-! ## Region 3: the result -/

/-- THE KERNEL'S RESULT: after the last region the result array holds the reference's last stage of the six
    argument arrays. -/
theorem W7_v58 (c : Dev nD) : W7 m ρ c (Proc.devRef .tc main_v58)
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  rw [Region3.value (V6 m ρ) c]
  show Cert.Stages.bias (W6 m ρ c (Proc.devRef .tc main_v56)) (W6 m ρ c (Proc.devRef .tc main_v57)) = _
  rw [W6_v56, W6_v57]
  rfl

end Cert.KernelIdeal.Out

end
-- ==== Proof.lean ====
/- The certificate of a two-layer graph convolution against its jnp reference, over the extended reals.

   Both programs compute, from node features `x`, an edge list, and two weight/bias pairs,
   `out = A · (relu (A · (x · W1) + b1) · W2) + b2`, where `A` is the normalised adjacency with self-loops:
   `(A · h)[d] = Σ over edges (s → d) of deg[s]^(-1/2) · deg[d]^(-1/2) · h[s]`. The kernel computes the two dense
   projections and the two bias steps in four pipelined regions of fifty row blocks each, and leaves the gathers, the
   edge weights and the scatter-adds to host operations; the reference does everything on the host. The host parts are
   the same operations on both sides, so the two programs meet stage by stage: each region's result array is the
   reference's stage of the same operands (a block matmul into a zero accumulator is the host's contraction, the
   rounding of its operands to bf16 is the identity at the extended reals; a bias row broadcast in the kernel is the
   host's broadcast), and the final arrays are one term of the six argument arrays. No law of arithmetic beyond
   reading each operation at an index is needed, so the finiteness of the inputs is never used. -/
import proofs.«126303_j58961311040081_1_alg».proof.Defs
import proofs.«126303_j58961311040081_1_alg».proof.Proof.Gen.Kernel
import proofs.«126303_j58961311040081_1_alg».proof.Proof.Gen.Kernel.Frame
import proofs.«126303_j58961311040081_1_alg».proof.Proof.Gen.KernelIdeal
import proofs.«126303_j58961311040081_1_alg».proof.Proof.Gen.KernelIdeal.Frame
import proofs.«126303_j58961311040081_1_alg».proof.Proof.Gen.ReferenceIdeal
import proofs.«126303_j58961311040081_1_alg».proof.Proof.Gen.ReferenceIdeal.Run
import proofs.«126303_j58961311040081_1_alg».proof.Proof.Gen.ReferenceIdeal.Read
import proofs.«126303_j58961311040081_1_alg».proof.Proof.Gen.Pre_finite_inputs
import proofs.«126303_j58961311040081_1_alg».proof.Proof.KernelRun
import proofs.«126303_j58961311040081_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the reference's last stage of the six argument arrays: the kernel by
    its run through the four regions, the reference by its run read back; the arguments agree. -/
theorem algebraic : Cert.algebraic_KernelIdeal_ReferenceIdeal := by
  intro m ρ m' ρ' _ hagree
  refine ⟨fun c => Cert.ReferenceIdeal.Read.val_main_v76 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Out.W7_v58 m ρ c), (h c).2⟩)
      (Cert.KernelIdeal.Out.run_out (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v76_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
